-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S32x256x3 : Shape := ⟨3, ![32, 256, 3]⟩
abbrev S4096x3 : Shape := ⟨2, ![4096, 3]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x256x3 : S_.BroadcastsInDim S32x256x3 (![] : Fin 0 → Fin S32x256x3.rank)
  reducesTo_S32x256x3_S_d0_1_2 : S32x256x3.ReducesTo [0, 1, 2] S_
  bcast_S_S4096x3 : S_.BroadcastsInDim S4096x3 (![] : Fin 0 → Fin S4096x3.rank)
  reducesTo_S4096x3_S_d0_1 : S4096x3.ReducesTo [0, 1] S_

variable [Facts]

def fn_part1 {F : FTy → Type} [FloatOps F] (main_v13 : IVec S_ 1) (main_v16 : IVec S4096x3 1) : IVec S_ 1 :=
  let main_c_5 : IVec S_ 1 := constantI S_ 1 1#1
  let main_v17 : IVec S_ 1 := (fun x v => Host.reduce IntOp.andi x v reducesTo_S4096x3_S_d0_1 h_S_) main_v16 main_c_5
  let main_v18 : IVec S_ 1 := andi main_v13 main_v17
  main_v18

def fn {F : FTy → Type} [FloatOps F] (main_arg0 : FVec F S32x4096 .f32) (main_arg1 : FVec F S32x4096 .f32) (main_arg2 : FVec F S32x256x3 .f32) (main_arg3 : FVec F S4096x3 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x256x3 .f32 := Host.absf main_arg2
  let main_cst_2 : FVec F S_ .f32 := constant S_ .f32 0x7F800000#32
  let main_v10 : FVec F S32x256x3 .f32 := broadcastInDim S32x256x3 ![] bcast_S_S32x256x3 main_cst_2
  let main_v11 : IVec S32x256x3 1 := cmpf .olt main_v9 main_v10
  let main_c_3 : IVec S_ 1 := constantI S_ 1 1#1
  let main_v12 : IVec S_ 1 := (fun x v => Host.reduce IntOp.andi x v reducesTo_S32x256x3_S_d0_1_2 h_S_) main_v11 main_c_3
  let main_v13 : IVec S_ 1 := andi main_v8 main_v12
  let main_v14 : FVec F S4096x3 .f32 := Host.absf main_arg3
  let main_cst_4 : FVec F S_ .f32 := constant S_ .f32 0x7F800000#32
  let main_v15 : FVec F S4096x3 .f32 := broadcastInDim S4096x3 ![] bcast_S_S4096x3 main_cst_4
  let main_v16 : IVec S4096x3 1 := cmpf .olt main_v14 main_v15
  fn_part1 (F := F) main_v13 main_v16
-- ==== Kernel.lean ====
abbrev S32x4096 : Shape := ⟨2, ![32, 4096]⟩
abbrev S32x256x3 : Shape := ⟨3, ![32, 256, 3]⟩
abbrev S4096x3 : Shape := ⟨2, ![4096, 3]⟩
abbrev S32x4096x1 : Shape := ⟨3, ![32, 4096, 1]⟩
abbrev S32x32x128 : Shape := ⟨3, ![32, 32, 128]⟩
abbrev S32x3x256 : Shape := ⟨3, ![32, 3, 256]⟩
abbrev S32x1x1 : Shape := ⟨3, ![32, 1, 1]⟩
abbrev S1x4096x1 : Shape := ⟨3, ![1, 4096, 1]⟩
abbrev S1x32x128 : Shape := ⟨3, ![1, 32, 128]⟩
abbrev S1x3x256 : Shape := ⟨3, ![1, 3, 256]⟩
abbrev S1x1x1 : Shape := ⟨3, ![1, 1, 1]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S4096x1 : Shape := ⟨2, ![4096, 1]⟩
abbrev S3x256 : Shape := ⟨2, ![3, 256]⟩
abbrev S1x256 : Shape := ⟨2, ![1, 256]⟩
abbrev S4096x256 : Shape := ⟨2, ![4096, 256]⟩
abbrev S4096 : Shape := ⟨1, ![4096]⟩
abbrev S_ : Shape := ⟨0, ![]⟩

abbrev nBuf : Space → Nat
  | .hbm => 32
  | .vmem => 15
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x256x3, .f32⟩
  | .hbm, ⟨3, _⟩ => ⟨S4096x3, .f32⟩
  | .hbm, ⟨4, _⟩ => ⟨S32x4096x1, .f32⟩
  | .hbm, ⟨5, _⟩ => ⟨S32x32x128, .f32⟩
  | .hbm, ⟨6, _⟩ => ⟨S32x32x128, .f32⟩
  | .hbm, ⟨7, _⟩ => ⟨S32x3x256, .f32⟩
  | .hbm, ⟨8, _⟩ => ⟨S32x1x1, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x4096x1, .f32⟩
  | .local _ .vmem, ⟨1, _⟩ => ⟨S1x4096x1, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x3x256, .f32⟩
  | .local _ .vmem, ⟨7, _⟩ => ⟨S1x3x256, .f32⟩
  | .local _ .vmem, ⟨8, _⟩ => ⟨S4096x3, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x4096_S32x4096x1 : S32x4096.ShapeCasts S32x4096x1
  shapeCasts_S32x4096_S32x32x128 : S32x4096.ShapeCasts S32x32x128
  transposes_S32x256x3_S32x3x256_0_2_1 : S32x256x3.Transposes [0, 2, 1] S32x3x256
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  natLt_1_32 : 1 < 32
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  inb_S4096x3_S4096x3_0_0 : ∀ a, (![0, 0] : Fin 2 → Nat) a + S4096x3.size a ≤ S4096x3.size a
  h_S4096x3 : 0 < S4096x3.numel
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  slices_S3x256_o0_0_S1x256 : S3x256.Slices ![0, 0] S1x256
  slices_S3x256_o1_0_S1x256 : S3x256.Slices ![1, 0] S1x256
  slices_S3x256_o2_0_S1x256 : S3x256.Slices ![2, 0] S1x256
  broadcasts_S4096x1_S4096x256 : S4096x1.Broadcasts S4096x256
  broadcasts_S1x256_S4096x256 : S1x256.Broadcasts S4096x256
  reduces_S4096x256_S4096 : S4096x256.Reduces [1] S4096
  shapeCasts_S4096_S4096x1 : S4096.ShapeCasts S4096x1
  reduces_S4096x1_S1 : S4096x1.Reduces [0] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S32x1x1_S_d0_1_2 : S32x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1.size a ≤ S32x4096x1.size a
  hwx0_0 : ∀ i : grid0.Coords, EltTy.bits .f32 = 32 ∨ (Rect.block (s := S32x4096x1) S1x4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S32x32x128.size a
  hwx0_1 : ∀ i : grid0.Coords, EltTy.bits .f32 = 32 ∨ (Rect.block (s := S32x32x128) S1x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S32x32x128.size a
  hwx0_2 : ∀ i : grid0.Coords, EltTy.bits .f32 = 32 ∨ (Rect.block (s := S32x32x128) S1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256.size a ≤ S32x3x256.size a
  hwx0_3 : ∀ i : grid0.Coords, EltTy.bits .f32 = 32 ∨ (Rect.block (s := S32x3x256) S1x3x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x3.size a ≤ S4096x3.size a
  hwx0_4 : ∀ i : grid0.Coords, EltTy.bits .f32 = 32 ∨ (Rect.block (s := S4096x3) S4096x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S32x1x1.size a
  hwx0_5 : ∀ i : grid0.Coords, EltTy.bits .f32 = 32 ∨ (Rect.block (s := S32x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S32x1x1.size a
  hwx0_6 : ∀ i : grid0.Coords, EltTy.bits .f32 = 32 ∨ (Rect.block (s := S32x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S32x1x1.size a
  hwx0_7 : ∀ i : grid0.Coords, EltTy.bits .f32 = 32 ∨ (Rect.block (s := S32x1x1) S1x1x1.size (cc0_transform_7 i) (hinb0_7 i)).WholeWords (EltTy.packing .f32)

variable [Facts₀]

abbrev win0_0 : Pipeline.Window sig grid0 :=
  Pipeline.Window.ofSpec (Memref.whole main_v0) S1x4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4096x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x4096 : Shape := ⟨2, ![32, 4096]⟩
abbrev S32x256x3 : Shape := ⟨3, ![32, 256, 3]⟩
abbrev S4096x3 : Shape := ⟨2, ![4096, 3]⟩
abbrev S_ : Shape := ⟨0, ![]⟩
abbrev S1x4096x1x3 : Shape := ⟨4, ![1, 4096, 1, 3]⟩
abbrev S32x1x256x3 : Shape := ⟨4, ![32, 1, 256, 3]⟩
abbrev S32x4096x256x3 : Shape := ⟨4, ![32, 4096, 256, 3]⟩
abbrev S32x4096x256 : Shape := ⟨3, ![32, 4096, 256]⟩
abbrev S32 : Shape := ⟨1, ![32]⟩

abbrev nBuf : Space → Nat
  | .hbm => 79
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x256x3, .f32⟩
  | .hbm, ⟨3, _⟩ => ⟨S4096x3, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x4096, .f32⟩
  | .hbm, ⟨8, _⟩ => ⟨S32x4096, .f32⟩
  | .hbm, ⟨9, _⟩ => ⟨S_, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S32x4096, .f32⟩
  | .hbm, ⟨14, _⟩ => ⟨S_, .f32⟩
  | .hbm, ⟨15, _⟩ => ⟨S32x4096, .f32⟩
  | .hbm, ⟨16, _⟩ => ⟨S32x4096, .f32⟩
  | .hbm, ⟨17, _⟩ => ⟨S32x4096, .f32⟩
  | .hbm, ⟨18, _⟩ => ⟨S32x4096, .f32⟩
  | .hbm, ⟨19, _⟩ => ⟨S32x4096, .f32⟩
  | .hbm, ⟨20, _⟩ => ⟨S32x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x4096, .f32⟩
  | .hbm, ⟨28, _⟩ => ⟨S32x4096, .i1⟩
  | .hbm, ⟨29, _⟩ => ⟨S32x4096, .f32⟩
  | .hbm, ⟨30, _⟩ => ⟨S32x4096, .i1⟩
  | .hbm, ⟨31, _⟩ => ⟨S_, .f32⟩
  | .hbm, ⟨32, _⟩ => ⟨S32x4096, .f32⟩
  | .hbm, ⟨33, _⟩ => ⟨S32x4096, .i1⟩
  | .hbm, ⟨34, _⟩ => ⟨S32x4096, .i1⟩
  | .hbm, ⟨35, _⟩ => ⟨S32x4096, .f32⟩
  | .hbm, ⟨36, _⟩ => ⟨S_, .f32⟩
  | .hbm, ⟨37, _⟩ => ⟨S_, .f32⟩
  | .hbm, ⟨38, _⟩ => ⟨S1x4096x1x3, .f32⟩
  | .hbm, ⟨39, _⟩ => ⟨S32x1x256x3, .f32⟩
  | .hbm, ⟨40, _⟩ => ⟨S32x4096x256x3, .f32⟩
  | .hbm, ⟨41, _⟩ => ⟨S32x4096x256x3, .f32⟩
  | .hbm, ⟨42, _⟩ => ⟨S32x4096x256x3, .f32⟩
  | .hbm, ⟨43, _⟩ => ⟨S32x4096x256x3, .f32⟩
  | .hbm, ⟨44, _⟩ => ⟨S_, .f32⟩
  | .hbm, ⟨45, _⟩ => ⟨S32x4096x256, .f32⟩
  | .hbm, ⟨46, _⟩ => ⟨S32x4096x256, .f32⟩
  | .hbm, ⟨47, _⟩ => ⟨S_, .f32⟩
  | .hbm, ⟨48, _⟩ => ⟨S32x4096, .f32⟩
  | .hbm, ⟨49, _⟩ => ⟨S_, .f32⟩
  | .hbm, ⟨50, _⟩ => ⟨S32, .f32⟩
  | .hbm, ⟨51, _⟩ => ⟨S32x4096, .f32⟩
  | .hbm, ⟨52, _⟩ => ⟨S_, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .i1⟩
  | .hbm, ⟨61, _⟩ => ⟨S_, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_cst_13 : Ref sig .tc := ⟨.hbm, 61, rfl⟩
abbrev main_call1_v0 : Ref sig .tc := ⟨.hbm, 62, rfl⟩
abbrev main_call1_v1 : Ref sig .tc := ⟨.hbm, 63, rfl⟩
abbrev main_v38 : Ref sig .tc := ⟨.hbm, 64, rfl⟩
abbrev main_cst_14 : Ref sig .tc := ⟨.hbm, 65, rfl⟩
abbrev main_v39 : Ref sig .tc := ⟨.hbm, 66, rfl⟩
abbrev main_cst_15 : Ref sig .tc := ⟨.hbm, 67, rfl⟩
abbrev main_v40 : Ref sig .tc := ⟨.hbm, 68, rfl⟩
abbrev main_cst_16 : Ref sig .tc := ⟨.hbm, 69, rfl⟩
abbrev main_v41 : Ref sig .tc := ⟨.hbm, 70, rfl⟩
abbrev main_cst_17 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_18 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S4096x3_S1x4096x1x3_1_3 : S4096x3.BroadcastsInDim S1x4096x1x3 (![1, 3] : Fin 2 → Fin S1x4096x1x3.rank)
  bcast_S32x256x3_S32x1x256x3_0_2_3 : S32x256x3.BroadcastsInDim S32x1x256x3 (![0, 2, 3] : Fin 3 → Fin S32x1x256x3.rank)
  bcast_S1x4096x1x3_S32x4096x256x3_0_1_2_3 : S1x4096x1x3.BroadcastsInDim S32x4096x256x3 (![0, 1, 2, 3] : Fin 4 → Fin S32x4096x256x3.rank)
  bcast_S32x1x256x3_S32x4096x256x3_0_1_2_3 : S32x1x256x3.BroadcastsInDim S32x4096x256x3 (![0, 1, 2, 3] : Fin 4 → Fin S32x4096x256x3.rank)
  reducesTo_S32x4096x256x3_S32x4096x256_d3 : S32x4096x256x3.ReducesTo [3] S32x4096x256
  reducesTo_S32x4096x256_S32x4096_d2 : S32x4096x256.ReducesTo [2] S32x4096
  reducesTo_S32x4096_S32_d1 : S32x4096.ReducesTo [1] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Spec.lean ====
/-
  The value both programs compute, written once over the four argument arrays read by coordinates:
  probabilities `P b v` and targets `T b v` (32 samples, 4096 voxels), ground-truth points `D b g k`
  (256 points of 3 coordinates per sample) and voxel centres `C v k`.

  Per voxel: the clipped probability `min hi (max lo p)`; the cross-entropy term
  `t · log p' + (1 - t) · log1p (-p')`; the mask `[p > thr]` as a number; the true-positive indicator
  `[mask = t ∧ mask = 1]`. Per sample: the sums of those over the voxels, and the masked chamfer term —
  the sum over the voxels of (the least distance from the voxel's centre to a ground-truth point) times the
  mask, divided by `max count 1`, kept only where the count is positive. The result is
  `1 · (-(Σ bce / 131072)) + 1 · (Σ chamfer / 32) + 1 · exp (-(Σ tp))`.

  The float patterns stay patterns (`Ideal.ofBits`): both programs spell the same words, so only three are
  ever evaluated — the zero word (the sums' starting value), the infinity word (the minimum's starting value)
  and `131072.0` (nonzero, for moving a sign across the quotient).
-/
import Idealize.ShloMosaic.PureOps.Ideal
import Idealize.ShloMosaic.PureOps.Ideal.Laws
import Idealize.ShloMosaic.Lib.ValueIdx

noncomputable section

namespace Cert.LossSpec

open Idealize.ShloMosaic

/-! ## The constants, as the words both programs print -/

abbrev cLo : EReal := Ideal.ofBits .f32 0x33D6BF95#32
abbrev cHi : EReal := Ideal.ofBits .f32 0x3F7FFFFE#32
abbrev cOne : EReal := Ideal.ofBits .f32 0x3F800000#32
abbrev cThr : EReal := Ideal.ofBits .f32 0x3C23D70A#32
abbrev cInf : EReal := Ideal.ofBits .f32 0x7F800000#32
abbrev cVox : EReal := Ideal.ofBits .f32 0x48000000#32
abbrev cBatch : EReal := Ideal.ofBits .f32 0x42000000#32

/-- The infinity word denotes `⊤`. -/
theorem cInf_eq : cInf = ⊤ := by
  simp [Ideal.ofBits, Ideal.ieee]

/-- `131072.0` denotes the real `131072`; all that is used of it is that it is not zero. -/
theorem cVox_eq : cVox = ((131072 : ℝ) : EReal) := by
  simp [Ideal.ofBits, Ideal.ieee, -EReal.coe_mul]; norm_num

theorem cVox_ne_zero : cVox ≠ 0 := by
  rw [cVox_eq]; exact_mod_cast (by norm_num : (131072 : ℝ) ≠ 0)

/-! ## Per voxel -/

/-- The probability clipped into `[lo, hi]`. -/
def clip (p : EReal) : EReal := min cHi (max cLo p)

/-- The cross-entropy term of one voxel. -/
def bceT (p t : EReal) : EReal := t * Ideal.log (clip p) + (cOne - t) * Ideal.log1p (-(clip p))

/-- The mask `[p > thr]`, as the number 0 or 1. -/
def msk (p : EReal) : EReal := (((Ideal.cmp .ogt p cThr).toNat : ℝ) : EReal)

/-- The true-positive indicator `[mask = t ∧ mask = 1]`, as the number 0 or 1. -/
def tpT (p t : EReal) : EReal :=
  (((IntOp.andi (Ideal.cmp .oeq (msk p) t) (Ideal.cmp .oeq (msk p) cOne)).toNat : ℝ) : EReal)

/-- The squared distance between a centre and a point, coordinate by coordinate. -/
def sq3 (c0 c1 c2 g0 g1 g2 : EReal) : EReal :=
  (c0 - g0) * (c0 - g0) + (c1 - g1) * (c1 - g1) + (c2 - g2) * (c2 - g2)

/-! ## Per sample, and the result -/

section
variable (P T : Fin 32 → Fin 4096 → EReal) (D : Fin 32 → Fin 256 → Fin 3 → EReal) (C : Fin 4096 → Fin 3 → EReal)

def bce (b : Fin 32) : EReal := ∑ v : Fin 4096, bceT (P b v) (T b v)
def tp (b : Fin 32) : EReal := ∑ v : Fin 4096, tpT (P b v) (T b v)
def cnt (b : Fin 32) : EReal := ∑ v : Fin 4096, msk (P b v)

def dist2 (b : Fin 32) (v : Fin 4096) (g : Fin 256) : EReal :=
  sq3 (C v 0) (C v 1) (C v 2) (D b g 0) (D b g 1) (D b g 2)

/-- The least distance from voxel `v`'s centre to a ground-truth point of sample `b`: the minimum, from `⊤`, of the
    distances' square roots. -/
def dmin (b : Fin 32) (v : Fin 4096) : EReal :=
  (Finset.univ : Finset (Fin 256)).fold min cInf (fun g => Ideal.sqrt (dist2 D C b v g))

def sd (b : Fin 32) : EReal := ∑ v : Fin 4096, dmin D C b v * msk (P b v)

/-- The chamfer term of sample `b`. -/
def cd (b : Fin 32) : EReal :=
  Scalar.select (Ideal.cmp .ogt (cnt P b) (Ideal.ofBits .f32 0x00000000#32))
    (Ideal.div (sd P D C b) (max (cnt P b) cOne)) (Ideal.ofBits .f32 0x00000000#32)

/-- The loss. -/
def total : EReal :=
  (cOne * -(Ideal.div (∑ b : Fin 32, bce P T b) cVox) + cOne * Ideal.div (∑ b : Fin 32, cd P D C b) cBatch)
    + cOne * Ideal.exp (-(∑ b : Fin 32, tp P T b))

end

/-! ## The laws that join the two programs' spellings -/

/-- The square root on the extended reals is monotone (its junk value below zero is `⊥`). -/
theorem sqrt_mono : Monotone Ideal.sqrt := by
  intro x y hxy
  induction x using EReal.rec with
  | bot => exact bot_le
  | top =>
    have : y = ⊤ := top_le_iff.mp hxy
    rw [this]
  | coe r =>
    induction y using EReal.rec with
    | bot => exact absurd hxy (not_le.mpr (EReal.bot_lt_coe r))
    | top => exact le_top
    | coe q =>
      have hrq : r ≤ q := EReal.coe_le_coe_iff.mp hxy
      rw [Ideal.sqrt_coe, Ideal.sqrt_coe]
      by_cases hr : r < 0
      · rw [if_pos hr]; exact bot_le
      · rw [if_neg hr, if_neg (by linarith : ¬ q < 0)]
        exact EReal.coe_le_coe_iff.mpr (Real.sqrt_le_sqrt hrq)

/-- So the square root of a minimum taken from `⊤` is the minimum, from `⊤`, of the square roots. -/
theorem sqrt_fold_min {ι : Type*} (s : Finset ι) (f : ι → EReal) :
    Ideal.sqrt (s.fold min cInf f) = s.fold min cInf (fun g => Ideal.sqrt (f g)) := by
  classical
  induction s using Finset.induction_on with
  | empty => simp only [Finset.fold_empty]; rw [cInf_eq]; rfl
  | insert a s ha ih =>
    rw [Finset.fold_insert ha, Finset.fold_insert ha, sqrt_mono.map_min, ih]

/-- A sign crosses a quotient by a nonzero divisor. -/
theorem div_neg_left (a : EReal) : Ideal.div (-a) cVox = -(Ideal.div a cVox) := by
  unfold Ideal.div
  rw [if_neg cVox_ne_zero, if_neg cVox_ne_zero, EReal.neg_mul]

/-- A bit widened to a word and read signed is the bit read unsigned. -/
theorem toInt_setWidth_bit (b : BitVec 1) : (((b.setWidth 32).toInt : ℝ) : EReal) = (((b.toNat : ℝ)) : EReal) := by
  by_cases h : b = 1#1
  · subst h; simp
  · have := ValueIdx.eq_zero_of_ne_one h; subst this; simp

end Cert.LossSpec

end
-- ==== Proof.RefValue.lean ====
/-
  The reference's result, read one operation at a time, is the loss of Proof/Spec.lean of the four argument arrays
  read by coordinates.
-/
import proofs.«421030_j70016556859475_3_alg».proof.Proof.RefRead
import proofs.«421030_j70016556859475_3_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx Cert.LossSpec

section
variable (x0 x1 : (⟨S32x4096, .f32⟩ : BufTy).Contents (Elt Ideal)) (x2 : (⟨S32x256x3, .f32⟩ : BufTy).Contents (Elt Ideal))
  (x3 : (⟨S4096x3, .f32⟩ : BufTy).Contents (Elt Ideal))

/-! ## Per voxel -/

/-- The clipped probability of voxel `v` of sample `b`: `min hi (max lo p)`. -/
theorem v0_at (b : Fin 32) (v : Fin 4096) :
    val_main_v0 (F := Ideal) x0 (ix2 b v) = clip (x0 (ix2 b v)) := by
  rw [val_main_v0_apply, val_main_call0_v4_apply, val_main_call0_v3_apply, val_main_cst_0_apply,
    val_main_call0_v2_apply, val_main_call0_v1_apply, val_main_call0_v0_apply, val_main_cst_apply]
  rfl

/-- The cross-entropy term of a voxel: `t · log p' + (1 - t) · log1p (-p')` at the clipped probability `p'`. -/
theorem v8_at (b : Fin 32) (v : Fin 4096) :
    val_main_v8 (F := Ideal) x0 x1 (ix2 b v) = bceT (x0 (ix2 b v)) (x1 (ix2 b v)) := by
  rw [val_main_v8_apply, val_main_v2_apply, val_main_v1_apply, val_main_v7_apply, val_main_v4_apply,
    val_main_v3_apply, val_main_cst_1_apply, val_main_v6_apply, val_main_v5_apply, v0_at]
  rfl

/-- The mask of a voxel: the bit `[p > thr]` read as a number. -/
theorem v14_at (b : Fin 32) (v : Fin 4096) :
    val_main_v14 (F := Ideal) x0 (ix2 b v) = msk (x0 (ix2 b v)) := by
  rw [val_main_v14_apply, val_main_v13_apply, val_main_v12_apply, val_main_cst_4_apply]
  rfl

/-- The true-positive indicator of a voxel: the bit `[mask = t] ∧ [mask = 1]` read as a number. -/
theorem v19_at (b : Fin 32) (v : Fin 4096) :
    val_main_v19 (F := Ideal) x0 x1 (ix2 b v) = tpT (x0 (ix2 b v)) (x1 (ix2 b v)) := by
  rw [val_main_v19_apply, val_main_v18_apply, val_main_v15_apply, val_main_v17_apply, val_main_v16_apply,
    val_main_cst_5_apply, v14_at]
  rfl

/-! ## The distances -/

/-- The squared distance from voxel `v`'s centre to point `g` of sample `b`: the two broadcasts read the centre at
    `(v, k)` and the point at `(b, g, k)`, and the sum over the three coordinates starts from zero. -/
theorem v27_at (b : Fin 32) (v : Fin 4096) (g : Fin 256) :
    val_main_v27 (F := Ideal) x2 x3 (ix3 b v g)
      = dist2 (fun b g k => x2 (ix3 b g k)) (fun v k => x3 (ix2 v k)) b v g := by
  have eC : ∀ k : Fin 3, idx_main_v21 (idx_main_v23 (idx_main_v27 (ix3 b v g) k)) = ix2 v k := fun k =>
    funext fun a => Fin.ext (by match a with | ⟨0, _⟩ => rfl | ⟨1, _⟩ => rfl)
  have eD : ∀ k : Fin 3, idx_main_v22 (idx_main_v24 (idx_main_v27 (ix3 b v g) k)) = ix3 b g k := fun k =>
    funext fun a => Fin.ext (by match a with | ⟨0, _⟩ => rfl | ⟨1, _⟩ => rfl | ⟨2, _⟩ => rfl)
  have term : ∀ k : Fin 3, val_main_v26 (F := Ideal) x2 x3 (idx_main_v27 (ix3 b v g) k)
      = (x3 (ix2 v k) - x2 (ix3 b g k)) * (x3 (ix2 v k) - x2 (ix3 b g k)) := fun k => by
    rw [val_main_v26_apply, val_main_v25_apply, val_main_v23_apply, val_main_v21_apply, val_main_v24_apply,
      val_main_v22_apply, eC, eD]
    rfl
  rw [val_main_v27_apply, val_main_cst_7_apply, Fin.sum_univ_three, term, term, term, Ideal.ofBits_def,
    Ideal.ofBits_zero_f32, zero_add]
  rfl

/-- The index the minimum over the points reads: `(b, v)` with the point's coordinate `g` inserted. -/
theorem lift_d2 (h : S32x4096x256.Reduces [2] S32x4096) (b : Fin 32) (v : Fin 4096) (g : Fin 256) :
    h.lift (ix2 b v) g = ix3 b v g :=
  funext fun a => Fin.ext (by match a with | ⟨0, _⟩ => rfl | ⟨1, _⟩ => rfl | ⟨2, _⟩ => rfl)

/-- The least distance from voxel `v`'s centre to a point of sample `b`: the minimum, from the infinity word, of the
    square roots of the squared distances. -/
theorem v29_at (b : Fin 32) (v : Fin 4096) :
    val_main_v29 (F := Ideal) x2 x3 (ix2 b v)
      = dmin (fun b g k => x2 (ix3 b g k)) (fun v k => x3 (ix2 v k)) b v := by
  unfold val_main_v29
  refine (Host.reduce_eq_fold_single (FloatOps.minimumf (F := Ideal) (φ := .f32)) _ _
    reducesTo_S32x4096x256_S32x4096_d2 (by decide) h_S_ (ix2 b v)).trans ?_
  unfold dmin
  refine Finset.fold_congr (fun g _ => ?_)
  refine (congrArg (val_main_v28 (F := Ideal) x2 x3) (lift_d2 _ b v g)).trans ?_
  exact congrArg Ideal.sqrt (v27_at x2 x3 b v g)

end

section
variable (x0 x1 : (⟨S32x4096, .f32⟩ : BufTy).Contents (Elt Ideal)) (x2 : (⟨S32x256x3, .f32⟩ : BufTy).Contents (Elt Ideal))
  (x3 : (⟨S4096x3, .f32⟩ : BufTy).Contents (Elt Ideal))

/-! ## Per sample -/

/-- The row index a per-sample sum reads: sample `b` with the voxel's coordinate inserted. -/
theorem row_v30 (b : Fin 32) (k : Fin 4096) : idx_main_v30 (ix1 b) k = ix2 b k :=
  funext fun a => Fin.ext (by match a with | ⟨0, _⟩ => rfl | ⟨1, _⟩ => rfl)

theorem row_v32 (b : Fin 32) (k : Fin 4096) : idx_main_v32 (ix1 b) k = ix2 b k :=
  funext fun a => Fin.ext (by match a with | ⟨0, _⟩ => rfl | ⟨1, _⟩ => rfl)

/-- The mask count of sample `b`: the sum, from zero, of the masks of its voxels. -/
theorem v30_at (b : Fin 32) :
    val_main_v30 (F := Ideal) x0 (ix1 b) = cnt (fun b v => x0 (ix2 b v)) b := by
  rw [val_main_v30_apply, val_main_cst_9_apply, Ideal.ofBits_def, Ideal.ofBits_zero_f32, zero_add]
  exact Finset.sum_congr rfl fun k _ => (congrArg (val_main_v14 (F := Ideal) x0) (row_v30 b k)).trans (v14_at x0 b k)

/-- The masked distance sum of sample `b`: the sum, from zero, of (least distance) · (mask) over its voxels. -/
theorem v32_at (b : Fin 32) :
    val_main_v32 (F := Ideal) x0 x2 x3 (ix1 b)
      = sd (fun b v => x0 (ix2 b v)) (fun b g k => x2 (ix3 b g k)) (fun v k => x3 (ix2 v k)) b := by
  rw [val_main_v32_apply, val_main_cst_10_apply, Ideal.ofBits_def, Ideal.ofBits_zero_f32, zero_add]
  refine Finset.sum_congr rfl fun k _ => ?_
  refine (congrArg (val_main_v31 (F := Ideal) x0 x2 x3) (row_v32 b k)).trans ?_
  rw [val_main_v31_apply, v29_at, v14_at]
  rfl

/-- The chamfer term of sample `b`: the masked distance sum over `max count 1`, kept where the count is positive. -/
theorem v38_at (b : Fin 32) :
    val_main_v38 (F := Ideal) x0 x2 x3 (ix1 b)
      = cd (fun b v => x0 (ix2 b v)) (fun b g k => x2 (ix3 b g k)) (fun v k => x3 (ix2 v k)) b := by
  rw [val_main_v38_apply, val_main_v37_apply, val_main_v36_apply, val_main_cst_12_apply, val_main_v35_apply,
    val_main_v34_apply, val_main_v33_apply, val_main_cst_11_apply, val_main_call1_v1_apply, val_main_call1_v0_apply,
    val_main_cst_13_apply, v30_at, v32_at]
  rfl

/-! ## The three sums of the result -/

/-- The cross-entropy total: the sum over every voxel of every sample is the sum over the samples of the per-sample sums. -/
theorem v9_at (i : S_.Idx) :
    val_main_v9 (F := Ideal) x0 x1 i = ∑ b : Fin 32, bce (fun b v => x0 (ix2 b v)) (fun b v => x1 (ix2 b v)) b := by
  rw [val_main_v9_apply, val_main_cst_2_apply, Ideal.ofBits_def, Ideal.ofBits_zero_f32, zero_add]
  refine (sum_idx2 _).trans ?_
  exact Finset.sum_congr rfl fun b _ => Finset.sum_congr rfl fun v _ => v8_at x0 x1 b v

/-- The true-positive total, likewise. -/
theorem v20_at (i : S_.Idx) :
    val_main_v20 (F := Ideal) x0 x1 i = ∑ b : Fin 32, tp (fun b v => x0 (ix2 b v)) (fun b v => x1 (ix2 b v)) b := by
  rw [val_main_v20_apply, val_main_cst_6_apply, Ideal.ofBits_def, Ideal.ofBits_zero_f32, zero_add]
  refine (sum_idx2 _).trans ?_
  exact Finset.sum_congr rfl fun b _ => Finset.sum_congr rfl fun v _ => v19_at x0 x1 b v

/-- The chamfer total: a sum over the rank-1 index set is the sum over its coordinate. -/
theorem v39_at (i : S_.Idx) :
    val_main_v39 (F := Ideal) x0 x2 x3 i
      = ∑ b : Fin 32, cd (fun b v => x0 (ix2 b v)) (fun b g k => x2 (ix3 b g k)) (fun v k => x3 (ix2 v k)) b := by
  rw [val_main_v39_apply, val_main_cst_14_apply, Ideal.ofBits_def, Ideal.ofBits_zero_f32, zero_add]
  refine (Fintype.sum_equiv idxEquiv1 _ (fun b : Fin 32 => val_main_v38 (F := Ideal) x0 x2 x3 (ix1 b))
    (fun j => congrArg (val_main_v38 (F := Ideal) x0 x2 x3) (eq_ix1 j))).trans ?_
  exact Finset.sum_congr rfl fun b _ => v38_at x0 x2 x3 b

end

/-- The reference's result at its one index is the loss of the argument arrays. -/
theorem ref_total (x0 x1 : (⟨S32x4096, .f32⟩ : BufTy).Contents (Elt Ideal)) (x2 : (⟨S32x256x3, .f32⟩ : BufTy).Contents (Elt Ideal))
    (x3 : (⟨S4096x3, .f32⟩ : BufTy).Contents (Elt Ideal)) (i : S_.Idx) :
    val_main_v47 (F := Ideal) x0 x1 x2 x3 i
      = total (fun b v => x0 (ix2 b v)) (fun b v => x1 (ix2 b v)) (fun b g k => x2 (ix3 b g k)) (fun v k => x3 (ix2 v k)) := by
  rw [val_main_v47_apply, val_main_v43_apply, val_main_v41_apply, val_main_cst_16_apply, val_main_v11_apply,
    val_main_v10_apply, val_main_cst_3_apply, val_main_v42_apply, val_main_cst_17_apply, val_main_v40_apply,
    val_main_cst_15_apply, val_main_v46_apply, val_main_cst_18_apply, val_main_v45_apply, val_main_v44_apply,
    v9_at, v39_at, v20_at]
  unfold total
  simp only [Ideal.mulf_def, Ideal.addf_def, Ideal.hostNegf_def, Ideal.negf_def, Ideal.hostDivf_def,
    Ideal.hostUnary_exp_def, Ideal.ofBits_def]

end Cert.ReferenceIdeal.RefValue

end
-- ==== Proof.Payload.lean ====
/-
  What one grid point of the kernel stores, as numbers: from the point's blocks of the probabilities (as one column of
  4096 and as 32 rows of 128 lanes), of the targets (32 × 128), of the ground-truth points (3 rows of 256) and the
  whole table of centres, the three one-element results are the sample's cross-entropy sum, its true-positive count and
  its chamfer term, each over the block's own coordinates.
-/
import proofs.«421030_j70016556859475_3_alg».proof.Proof.Gen.KernelIdeal.Skeleton
import proofs.«421030_j70016556859475_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LossSpec

/-- The mask count of a sample, over the 32 × 128 block of its probabilities. -/
def cntBlock (x1 : Vec Ideal S1x32x128 .f32) : EReal := ∑ r : Fin 32, ∑ l : Fin 128, msk (x1 (ix3 0 r l))

/-- The least distance from centre `v` to a point of the block of ground-truth points. -/
def dminBlock (x3 : Vec Ideal S1x3x256 .f32) (x4 : Vec Ideal S4096x3 .f32) (v : Fin 4096) : EReal :=
  (Finset.univ : Finset (Fin 256)).fold min cInf (fun g => Ideal.sqrt
    (sq3 (x4 (ix2 v 0)) (x4 (ix2 v 1)) (x4 (ix2 v 2)) (x3 (ix3 0 0 g)) (x3 (ix3 0 1 g)) (x3 (ix3 0 2 g))))

/-! ## Indices of unit shapes, and the casts that add a trailing or leading unit axis -/

/-- The shape `[1, 1, 1]` has the one index `(0, 0, 0)`. -/
theorem idx111 (y : S1x1x1.Idx) : y = ix3 (0 : Fin 1) (0 : Fin 1) (0 : Fin 1) := by
  funext a
  apply Fin.ext
  match a with
  | ⟨0, h0⟩ => have h : (y ⟨0, h0⟩).val < 1 := (y ⟨0, h0⟩).isLt; show (y ⟨0, h0⟩).val = 0; omega
  | ⟨1, h1⟩ => have h : (y ⟨1, h1⟩).val < 1 := (y ⟨1, h1⟩).isLt; show (y ⟨1, h1⟩).val = 0; omega
  | ⟨2, h2⟩ => have h : (y ⟨2, h2⟩).val < 1 := (y ⟨2, h2⟩).isLt; show (y ⟨2, h2⟩).val = 0; omega

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A sum over the rows of the sums over the lanes -/

/-- The lane sum of a `32 × 128` block at row `r`. -/
theorem lane_sum (V : FVec Ideal S32x128 .f32) (h : S32x128.Reduces [1] S32) (hφ : FKind.Formats .f32)
    (hacc : (0x00000000#32 : BitVec 32) = FKind.add.neutral .f32 hφ) (r : Fin 32) :
    multiReduction (F := Ideal) .add [1] S32 V 0x00000000#32 h hφ hacc (ix1 r) = ∑ l : Fin 128, V (ix2 r l) := by
  refine (Ideal.multiReduction_add_single V _ h hφ hacc (ix1 r)).trans ?_
  refine Finset.sum_congr rfl fun l _ => congrArg V ?_
  funext c
  apply Fin.ext
  match c with
  | ⟨0, _⟩ => rfl
  | ⟨1, _⟩ => rfl

/-- The sum down the one column of a `32 × 1` block. -/
theorem col_sum (W : FVec Ideal S32x1 .f32) (h : S32x1.Reduces [0] S1) (hφ : FKind.Formats .f32)
    (hacc : (0x00000000#32 : BitVec 32) = FKind.add.neutral .f32 hφ) (u : Fin 1) :
    multiReduction (F := Ideal) .add [0] S1 W 0x00000000#32 h hφ hacc (ix1 u) = ∑ r : Fin 32, W (ix2 r (0 : Fin 1)) := by
  refine (Ideal.multiReduction_add_single W _ h hφ hacc (ix1 u)).trans ?_
  refine Finset.sum_congr rfl fun r _ => congrArg W ?_
  funext c
  apply Fin.ext
  match c with
  | ⟨0, _⟩ => rfl
  | ⟨1, _⟩ => show (u : ℕ) = 0; omega

/-- The two-stage sum: lanes first, then rows, with the casts between, is the double sum of the block. -/
theorem two_stage_sum (V : FVec Ideal S32x128 .f32) (h1 : S32x128.Reduces [1] S32) (h2 : S32.ShapeCasts S32x1)
    (h3 : S32x1.Reduces [0] S1) (h4 : S1.ShapeCasts S1x1) (hφ hφ' : FKind.Formats .f32)
    (hacc : (0x00000000#32 : BitVec 32) = FKind.add.neutral .f32 hφ)
    (hacc' : (0x00000000#32 : BitVec 32) = FKind.add.neutral .f32 hφ') :
    shapeCast S1x1 (multiReduction (F := Ideal) .add [0] S1
        (shapeCast S32x1 (multiReduction (F := Ideal) .add [1] S32 V 0x00000000#32 h1 hφ hacc) h2)
        0x00000000#32 h3 hφ' hacc') h4 (ix2 (0 : Fin 1) (0 : Fin 1))
      = ∑ r : Fin 32, ∑ l : Fin 128, V (ix2 r l) := by
  refine (shapeCast_a_1a_apply _ h4 0 0).trans ?_
  refine (col_sum _ h3 hφ' hacc' 0).trans ?_
  refine Finset.sum_congr rfl fun r _ => ?_
  refine (shapeCast_a_a1_apply _ h2 r 0).trans ?_
  exact lane_sum V h1 hφ hacc r

/-! ## The dense blocks read by rows and lanes; the mask -/

/-- The probabilities' block as `32 × 128`: the leading unit axis dropped. -/
theorem pay3_apply (x1 : Vec Ideal S1x32x128 .f32) (r : Fin 32) (l : Fin 128) :
    k0_pay3 (F := Ideal) x1 (ix2 r l) = x1 (ix3 (0 : Fin 1) r l) :=
  shapeCast_1ab_ab_apply x1 _ r l

/-- The targets' block likewise. -/
theorem pay4_apply (x2 : Vec Ideal S1x32x128 .f32) (r : Fin 32) (l : Fin 128) :
    k0_pay4 (F := Ideal) x2 (ix2 r l) = x2 (ix3 (0 : Fin 1) r l) :=
  shapeCast_1ab_ab_apply x2 _ r l

/-- The kernel's mask — the comparison's bit widened to a word and read signed — is the mask as a number. -/
theorem pay6_apply (x1 : Vec Ideal S1x32x128 .f32) (r : Fin 32) (l : Fin 128) :
    k0_pay6 (F := Ideal) x1 (ix2 r l) = msk (x1 (ix3 (0 : Fin 1) r l)) := by
  show ((((Ideal.cmp .ogt (k0_pay3 (F := Ideal) x1 (ix2 r l)) cThr).setWidth 32).toInt : ℝ) : EReal) = _
  rw [toInt_setWidth_bit, pay3_apply]
  rfl

/-- The stored cross-entropy sum: over the rows and lanes of the dense blocks. -/
theorem bce_block (x1 x2 : Vec Ideal S1x32x128 .f32) (y : S1x1x1.Idx) :
    k0_pay10 (F := Ideal) (k0_pay5 (F := Ideal) x1 x2) y
      = ∑ r : Fin 32, ∑ l : Fin 128, bceT (x1 (ix3 0 r l)) (x2 (ix3 0 r l)) := by
  -- the one index; the cast; the two-stage sum; then the term at a row and a lane, where the kernel's `0 - p'` is `-p'`
  rw [idx111 y]
  unfold k0_pay10 k0_pay5
  refine (shapeCast_ab_1ab_apply _ _ (0 : Fin 1) (0 : Fin 1) (0 : Fin 1)).trans ?_
  refine (two_stage_sum _ _ _ _ _ _ _ _ _).trans ?_
  refine Finset.sum_congr rfl fun r _ => Finset.sum_congr rfl fun l _ => ?_
  show k0_pay4 (F := Ideal) x2 (ix2 r l) * Ideal.log (min cHi (max cLo (k0_pay3 (F := Ideal) x1 (ix2 r l))))
      + (cOne - k0_pay4 (F := Ideal) x2 (ix2 r l))
        * Ideal.log1p (Ideal.ofBits .f32 0x00000000#32 - min cHi (max cLo (k0_pay3 (F := Ideal) x1 (ix2 r l)))) = _
  rw [pay3_apply, pay4_apply, Ideal.ofBits_zero_f32, zero_sub]
  rfl

/-- The stored true-positive count. -/
theorem tp_block (x1 x2 : Vec Ideal S1x32x128 .f32) (y : S1x1x1.Idx) :
    k0_pay1 (F := Ideal) (k0_pay7 (F := Ideal) x1 x2) y
      = ∑ r : Fin 32, ∑ l : Fin 128, tpT (x1 (ix3 0 r l)) (x2 (ix3 0 r l)) := by
  -- as for the cross-entropy sum; the indicator's bit, widened and read signed, is the bit read unsigned
  rw [idx111 y]
  unfold k0_pay1 k0_pay7
  refine (shapeCast_ab_1ab_apply _ _ (0 : Fin 1) (0 : Fin 1) (0 : Fin 1)).trans ?_
  refine (two_stage_sum _ _ _ _ _ _ _ _ _).trans ?_
  refine Finset.sum_congr rfl fun r _ => Finset.sum_congr rfl fun l _ => ?_
  show ((((IntOp.andi (Ideal.cmp .oeq (k0_pay6 (F := Ideal) x1 (ix2 r l)) (k0_pay4 (F := Ideal) x2 (ix2 r l)))
      (Ideal.cmp .oeq (k0_pay6 (F := Ideal) x1 (ix2 r l)) cOne)).setWidth 32).toInt : ℝ) : EReal) = _
  rw [toInt_setWidth_bit, pay6_apply, pay4_apply]
  rfl

/-! ## The mask count -/

/-- The kernel's count of the mask over the dense block. -/
theorem pay8_apply (x1 : Vec Ideal S1x32x128 .f32) :
    k0_pay8 (F := Ideal) x1 (ix2 (0 : Fin 1) (0 : Fin 1)) = cntBlock x1 := by
  unfold k0_pay8
  refine (two_stage_sum _ _ _ _ _ _ _ _ _).trans ?_
  exact Finset.sum_congr rfl fun r _ => Finset.sum_congr rfl fun l _ => pay6_apply x1 r l

/-! ## The chamfer term: the centres' columns and the points' rows over the `4096 × 256` grid -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Coordinate `k` of centre `v`, spread along the points' axis. -/
theorem centre_apply (x4 : Vec Ideal S4096x3 .f32) (o : ℕ) (hs : S4096x3.Slices ![0, o] S4096x1)
    (hb : S4096x1.Broadcasts S4096x256) (k : Fin 3) (hk : k.val = o) (v : Fin 4096) (g : Fin 256) :
    broadcastTo S4096x256 (extractStridedSlice S4096x1 ![0, o] x4 hs) hb (ix2 v g) = x4 (ix2 v k) :=
  (broadcastTo_a1_ab_apply _ hb v g).trans (slice2_axis1_apply o x4 hs v (0 : Fin 1) k (by rw [hk]; rfl))

/-- Coordinate `k` of point `g`, spread along the centres' axis. -/
theorem point_apply (x3 : Vec Ideal S1x3x256 .f32) (o : ℕ) (hc : S1x3x256.ShapeCasts S3x256)
    (hs : S3x256.Slices ![o, 0] S1x256) (hb : S1x256.Broadcasts S4096x256) (k : Fin 3) (hk : k.val = o)
    (v : Fin 4096) (g : Fin 256) :
    broadcastTo S4096x256 (extractStridedSlice S1x256 ![o, 0] (shapeCast S3x256 x3 hc) hs) hb (ix2 v g)
      = x3 (ix3 (0 : Fin 1) k g) :=
  (broadcastTo_1b_ab_apply _ hb v g).trans
    ((slice2_axis0_apply o _ hs (0 : Fin 1) g k (by rw [hk]; rfl)).trans (shapeCast_1ab_ab_apply x3 hc k g))

/-- The minimum along the points' axis of a `4096 × 256` block, from the infinity word. -/
theorem lane_min (D : FVec Ideal S4096x256 .f32) (h : S4096x256.Reduces [1] S4096) (hφ : FKind.Formats .f32)
    (hacc : (0x7F800000#32 : BitVec 32) = FKind.minimumf.neutral .f32 hφ) (v : Fin 4096) :
    multiReduction (F := Ideal) .minimumf [1] S4096 D 0x7F800000#32 h hφ hacc (ix1 v)
      = (Finset.univ : Finset (Fin 256)).fold min cInf (fun g => D (ix2 v g)) := by
  refine (multiReduction_minimumf_eq_fold D _ h hφ hacc (ix1 v)).trans ?_
  refine (h.fold_filter_drop_single _ _ D (ix1 v)).trans ?_
  show (Finset.univ : Finset (Fin 256)).fold min cInf (D ∘ h.lift (ix1 v)) = _
  refine congrArg (fun f => (Finset.univ : Finset (Fin 256)).fold min cInf f) (funext fun g => congrArg D ?_)
  funext c
  apply Fin.ext
  match c with
  | ⟨0, _⟩ => rfl
  | ⟨1, _⟩ => rfl

/-- The sum down the one column of a `4096 × 1` block. -/
theorem col_sum_vox (W : FVec Ideal S4096x1 .f32) (h : S4096x1.Reduces [0] S1) (hφ : FKind.Formats .f32)
    (hacc : (0x00000000#32 : BitVec 32) = FKind.add.neutral .f32 hφ) (u : Fin 1) :
    multiReduction (F := Ideal) .add [0] S1 W 0x00000000#32 h hφ hacc (ix1 u) = ∑ v : Fin 4096, W (ix2 v (0 : Fin 1)) := by
  refine (Ideal.multiReduction_add_single W _ h hφ hacc (ix1 u)).trans ?_
  refine Finset.sum_congr rfl fun v _ => congrArg W ?_
  funext c
  apply Fin.ext
  match c with
  | ⟨0, _⟩ => rfl
  | ⟨1, _⟩ => show (u : ℕ) = 0; omega

/-- The tail at an index: kept where the count is positive, the masked sum over `max count 1`. -/
theorem tail_eq (c s : FVec Ideal S1x1 .f32) (i : S1x1.Idx) (C S : EReal) (hc : c i = C) (hs : s i = S) :
    select (cmpf .ogt c (broadcast S1x1 (Scalar.ofBits .f32 0x00000000#32)))
        (divf s (maximumf c (broadcast S1x1 (Scalar.ofBits .f32 0x3F800000#32))))
        (broadcast S1x1 (Scalar.ofBits .f32 0x00000000#32)) i
      = Scalar.select (Ideal.cmp .ogt C (Ideal.ofBits .f32 0x00000000#32)) (Ideal.div S (max C cOne))
          (Ideal.ofBits .f32 0x00000000#32) := by
  rw [← hc, ← hs]
  rfl

/-- A voxel's term: the root of its least squared distance times its mask, the mask read off the column layout. -/
theorem masked_apply (d p : FVec Ideal S4096x1 .f32) (h : 1 < 32) (i : S4096x1.Idx) :
    mulf (sqrt d) (sitofp .f32 (extui 32 (cmpf .ogt p (broadcast S4096x1 (Scalar.ofBits .f32 0x3C23D70A#32))) h)) i
      = Ideal.sqrt (d i) * msk (p i) := by
  show Ideal.sqrt (d i) * ((((Ideal.cmp .ogt (p i) cThr).setWidth 32).toInt : ℝ) : EReal) = _
  rw [toInt_setWidth_bit]
  rfl

/-- The summed squares at a centre and a point, from the six spread coordinates. -/
theorem sq_apply (a0 a1 a2 b0 b1 b2 : FVec Ideal S4096x256 .f32) (i : S4096x256.Idx) :
    addf (addf (mulf (subf a0 b0) (subf a0 b0)) (mulf (subf a1 b1) (subf a1 b1))) (mulf (subf a2 b2) (subf a2 b2)) i
      = sq3 (a0 i) (a1 i) (a2 i) (b0 i) (b1 i) (b2 i) := rfl

/-- The stored chamfer term. -/
theorem cd_block (x0 : Vec Ideal S1x4096x1 .f32) (x1 : Vec Ideal S1x32x128 .f32) (x3 : Vec Ideal S1x3x256 .f32)
    (x4 : Vec Ideal S4096x3 .f32) (y : S1x1x1.Idx) :
    k0_pay2 (F := Ideal) (k0_pay9 (F := Ideal) (k0_pay8 (F := Ideal) x1) x0 x4 x3) y
      = Scalar.select (Ideal.cmp .ogt (cntBlock x1) (Ideal.ofBits .f32 0x00000000#32))
          (Ideal.div (∑ v : Fin 4096, dminBlock x3 x4 v * msk (x0 (ix3 0 v 0))) (max (cntBlock x1) cOne))
          (Ideal.ofBits .f32 0x00000000#32) := by
  rw [idx111 y]
  unfold k0_pay2 k0_pay9
  refine (shapeCast_ab_1ab_apply _ _ (0 : Fin 1) (0 : Fin 1) (0 : Fin 1)).trans ?_
  -- the select, the quotient and the maximum at the one index, over the count and the masked sum
  refine tail_eq _ _ _ _ _ (pay8_apply x1) ?_
  -- the masked sum over the voxels
  refine (shapeCast_a_1a_apply _ _ (0 : Fin 1) (0 : Fin 1)).trans ?_
  refine (col_sum_vox _ _ _ _ 0).trans ?_
  refine Finset.sum_congr rfl fun v _ => ?_
  refine (masked_apply _ _ _ _).trans ?_
  refine congrArg₂ (· * ·) ?_ (congrArg msk (shapeCast_1ab_ab_apply x0 _ v (0 : Fin 1)))
  -- the least distance: the root of the minimum is the minimum of the roots
  unfold dminBlock
  rw [← sqrt_fold_min]
  refine congrArg Ideal.sqrt ?_
  refine (shapeCast_a_a1_apply _ _ v (0 : Fin 1)).trans ?_
  refine (lane_min _ _ _ _ v).trans ?_
  refine congrArg (fun f => (Finset.univ : Finset (Fin 256)).fold min cInf f) (funext fun g => ?_)
  -- the squared distance at a centre and a point
  refine (sq_apply _ _ _ _ _ _ _).trans ?_
  rw [centre_apply x4 0 _ _ 0 rfl v g, centre_apply x4 1 _ _ 1 rfl v g, centre_apply x4 2 _ _ 2 rfl v g,
    point_apply x3 0 _ _ _ 0 rfl v g, point_apply x3 1 _ _ _ 1 rfl v g, point_apply x3 2 _ _ _ 2 rfl v g]

end Cert.KernelIdeal.Payload

end
-- ==== Proof.KernelValue.lean ====
/-
  The kernel's side, first part: what the region finds and what it leaves.
  The host lines before the region reshape the probabilities to `[32, 4096, 1]` and `[32, 32, 128]`, the targets to
  `[32, 32, 128]`, and transpose the ground-truth points to `[32, 3, 256]`; grid point `t` sees sample `t`'s block of
  each and the whole table of centres. Each block entry is named by coordinates of the ARGUMENT arrays (row `r`, lane
  `l` of a dense block is voxel `128 r + l`), so that the stored one-element results of Proof/Payload.lean become the
  per-sample sums of Proof/Spec.lean, and the first two result arrays of the region, `[32, 1, 1]` each, end holding the
  samples' cross-entropy sums and true-positive counts.
-/
import proofs.«421030_j70016556859475_3_alg».proof.Proof.Gen.KernelIdeal.Frame
import proofs.«421030_j70016556859475_3_alg».proof.Proof.Spec
import proofs.«421030_j70016556859475_3_alg».proof.Proof.Payload
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section
namespace Cert.KernelIdeal.KValue
open Cert.KernelIdeal Cert.KernelIdeal.Gen Idealize.ShloMosaic Idealize.ShloMosaic.TcCoe Idealize.SL.Sem Idealize.ShloMosaic.ValueIdx
open Idealize.ShloMosaic.StableHlo Cert.LossSpec
open Idealize.ShloMosaic.Pipeline (Dat)

variable (m : (ℓ : Loc nD τ sig) → Buf (Elt Ideal) ℓ) (ρ : Dev nD → PrngReg)

/-! ## The arrays the region finds: the host lines before it -/

theorem V_v0 (c : Dev nD) : V m c main_v0 = shapeCast S32x4096x1 (m ((c : Thread nD τ).loc main_arg0)) shapeCasts_S32x4096_S32x4096x1 := by
  show StableHlo.after hostOps0 (fun b => m (c, b)) (Proc.devRef .tc main_v0) = _
  after_results
  rfl

theorem V_v1 (c : Dev nD) : V m c main_v1 = shapeCast S32x32x128 (m ((c : Thread nD τ).loc main_arg0)) shapeCasts_S32x4096_S32x32x128 := by
  show StableHlo.after hostOps0 (fun b => m (c, b)) (Proc.devRef .tc main_v1) = _
  after_results
  rfl

theorem V_v2 (c : Dev nD) : V m c main_v2 = shapeCast S32x32x128 (m ((c : Thread nD τ).loc main_arg1)) shapeCasts_S32x4096_S32x32x128 := by
  show StableHlo.after hostOps0 (fun b => m (c, b)) (Proc.devRef .tc main_v2) = _
  after_results
  rfl

theorem V_v3 (c : Dev nD) : V m c main_v3 = transpose S32x3x256 [0, 2, 1] (m ((c : Thread nD τ).loc main_arg2)) transposes_S32x256x3_S32x3x256_0_2_1 := by
  show StableHlo.after hostOps0 (fun b => m (c, b)) (Proc.devRef .tc main_v3) = _
  after_results

/-! ## The argument arrays by coordinates -/

abbrev aP (c : Dev nD) : Fin 32 → Fin 4096 → EReal := fun b v => (m ((c : Thread nD τ).loc main_arg0) : S32x4096.Idx → EReal) (ix2 b v)
abbrev aT (c : Dev nD) : Fin 32 → Fin 4096 → EReal := fun b v => (m ((c : Thread nD τ).loc main_arg1) : S32x4096.Idx → EReal) (ix2 b v)
abbrev aD (c : Dev nD) : Fin 32 → Fin 256 → Fin 3 → EReal := fun b g k => (m ((c : Thread nD τ).loc main_arg2) : S32x256x3.Idx → EReal) (ix3 b g k)
abbrev aC (c : Dev nD) : Fin 4096 → Fin 3 → EReal := fun v k => (m ((c : Thread nD τ).loc main_arg3) : S4096x3.Idx → EReal) (ix2 v k)

/-- A grid point is a sample. -/
abbrev tb (t : Fin cfg0.N) : Fin 32 := ⟨t.val, lt_of_lt_of_eq t.isLt (N_0 : cfg0.N = 32)⟩

/-- The printed index maps, decided over the 32 points: every window moving with the sample sits at block `(t, 0, 0)`,
    the centres' window at block `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## Each input block, read by coordinates of the argument arrays -/

/-- The point's blocks, at their literal types. -/
abbrev vblk (c : Dev nD) (t : Fin cfg0.N) : Vec Ideal S1x4096x1 .f32 := iblk m c 0 t
abbrev pblk (c : Dev nD) (t : Fin cfg0.N) : Vec Ideal S1x32x128 .f32 := iblk m c 1 t
abbrev tblk (c : Dev nD) (t : Fin cfg0.N) : Vec Ideal S1x32x128 .f32 := iblk m c 2 t
abbrev gblk (c : Dev nD) (t : Fin cfg0.N) : Vec Ideal S1x3x256 .f32 := iblk m c 3 t
abbrev cblk (c : Dev nD) (t : Fin cfg0.N) : Vec Ideal S4096x3 .f32 := iblk m c 4 t

/-- The column block of the probabilities: voxel `v` of sample `t`. -/
theorem vblk_apply (c : Dev nD) (t : Fin cfg0.N) (v : Fin 4096) :
    vblk m c t (ix3 0 v 0) = aP m c (tb t) v := by
  obtain ⟨⟨e0, e1, e2⟩, -⟩ := idx_facts t
  unfold vblk iblk
  rw [View.read_apply]
  show V m c main_v0 _ = _
  rw [V_v0]
  refine shapeCast_apply _ _ _ _ ?_
  show (S32x4096.rowMajor (ix2 (tb t) v)).val = (S32x4096x1.rowMajor (((cfg0.win 0).blk t).view.emb (ix3 0 v 0))).val
  rw [Shape.rowMajor_val_two, Shape.rowMajor_val_three]
  show (t.val * 4096 + v.val) = ((win0_0.index t (0 : Fin 3) * 1 + 1 * 0) * 4096 + (win0_0.index t (1 : Fin 3) * 4096 + 1 * v.val)) * 1 + (win0_0.index t (2 : Fin 3) * 1 + 1 * 0)
  rw [e0, e1, e2]; omega

/-- The dense block of the probabilities: row `r`, lane `l` is voxel `128 r + l` of sample `t`. -/
theorem pblk_apply (c : Dev nD) (t : Fin cfg0.N) (r : Fin 32) (l : Fin 128) :
    pblk m c t (ix3 0 r l) = aP m c (tb t) ⟨r.val * 128 + l.val, by omega⟩ := by
  obtain ⟨-, ⟨e0, e1, e2⟩, -⟩ := idx_facts t
  unfold pblk iblk
  rw [View.read_apply]
  show V m c main_v1 _ = _
  rw [V_v1]
  refine shapeCast_apply _ _ _ _ ?_
  show (S32x4096.rowMajor (ix2 (tb t) ⟨r.val * 128 + l.val, by omega⟩)).val = (S32x32x128.rowMajor (((cfg0.win 1).blk t).view.emb (ix3 0 r l))).val
  rw [Shape.rowMajor_val_two, Shape.rowMajor_val_three]
  show (t.val * 4096 + (r.val * 128 + l.val)) = ((win0_1.index t (0 : Fin 3) * 1 + 1 * 0) * 32 + (win0_1.index t (1 : Fin 3) * 32 + 1 * r.val)) * 128 + (win0_1.index t (2 : Fin 3) * 128 + 1 * l.val)
  rw [e0, e1, e2]; omega

/-- The dense block of the targets, likewise. -/
theorem tblk_apply (c : Dev nD) (t : Fin cfg0.N) (r : Fin 32) (l : Fin 128) :
    tblk m c t (ix3 0 r l) = aT m c (tb t) ⟨r.val * 128 + l.val, by omega⟩ := by
  obtain ⟨-, -, ⟨e0, e1, e2⟩, -⟩ := idx_facts t
  unfold tblk iblk
  rw [View.read_apply]
  show V m c main_v2 _ = _
  rw [V_v2]
  refine shapeCast_apply _ _ _ _ ?_
  show (S32x4096.rowMajor (ix2 (tb t) ⟨r.val * 128 + l.val, by omega⟩)).val = (S32x32x128.rowMajor (((cfg0.win 2).blk t).view.emb (ix3 0 r l))).val
  rw [Shape.rowMajor_val_two, Shape.rowMajor_val_three]
  show (t.val * 4096 + (r.val * 128 + l.val)) = ((win0_2.index t (0 : Fin 3) * 1 + 1 * 0) * 32 + (win0_2.index t (1 : Fin 3) * 32 + 1 * r.val)) * 128 + (win0_2.index t (2 : Fin 3) * 128 + 1 * l.val)
  rw [e0, e1, e2]; omega

/-- The block of ground-truth points, transposed by the host: row `k`, lane `g` is coordinate `k` of point `g` of sample `t`. -/
theorem gblk_apply (c : Dev nD) (t : Fin cfg0.N) (k : Fin 3) (g : Fin 256) :
    gblk m c t (ix3 0 k g) = aD m c (tb t) g k := by
  obtain ⟨-, -, -, ⟨e0, e1, e2⟩, -⟩ := idx_facts t
  unfold gblk iblk
  rw [View.read_apply]
  show V m c main_v3 _ = _
  rw [V_v3]
  refine transpose_apply _ _ _ _ _ fun b => ?_
  match b with
  | ⟨0, _⟩ => show t.val = win0_3.index t (0 : Fin 3) * 1 + 1 * 0; rw [e0]; omega
  | ⟨1, _⟩ => show k.val = win0_3.index t (1 : Fin 3) * 3 + 1 * k.val; rw [e1]; omega
  | ⟨2, _⟩ => show g.val = win0_3.index t (2 : Fin 3) * 256 + 1 * g.val; rw [e2]; omega

/-- The centres' block is the whole table. -/
theorem cblk_apply (c : Dev nD) (t : Fin cfg0.N) (v : Fin 4096) (k : Fin 3) :
    cblk m c t (ix2 v k) = aC m c v k := by
  obtain ⟨-, -, -, -, ⟨e0, e1⟩, -⟩ := idx_facts t
  unfold cblk iblk
  rw [View.read_apply]
  show V m c main_arg3 _ = _
  rw [V_main_arg3]
  show (m ((c : Thread nD τ).loc main_arg3) : S4096x3.Idx → EReal) _ = (m ((c : Thread nD τ).loc main_arg3) : S4096x3.Idx → EReal) (ix2 v k)
  congr 1
  funext a
  apply Fin.ext
  match a with
  | ⟨0, _⟩ => show win0_4.index t (0 : Fin 2) * 4096 + 1 * v.val = v.val; rw [e0]; omega
  | ⟨1, _⟩ => show win0_4.index t (1 : Fin 2) * 3 + 1 * k.val = k.val; rw [e1]; omega

/-! ## From rows and lanes to voxels -/

/-- A sum over 32 rows of 128 lanes is the sum over the 4096 voxels `128 r + l`. -/
theorem sum_rows_lanes {M : Type*} [AddCommMonoid M] (f : Fin 4096 → M) :
    ∑ r : Fin 32, ∑ l : Fin 128, f ⟨r.val * 128 + l.val, by omega⟩ = ∑ v : Fin 4096, f v := by
  rw [← Fintype.sum_prod_type' (fun (r : Fin 32) (l : Fin 128) => f ⟨r.val * 128 + l.val, by omega⟩)]
  refine Fintype.sum_equiv (finProdFinEquiv (m := 32) (n := 128)) _ _ (fun p => congrArg f (Fin.ext ?_))
  show p.1.val * 128 + p.2.val = p.2.val + 128 * p.1.val
  omega

theorem hz3 : (![0, 0, 0] : Fin 3 → Nat) = fun _ => 0 := funext fun a => by fin_cases a <;> rfl
theorem hz2 : (![0, 0] : Fin 2 → Nat) = fun _ => 0 := funext fun a => by fin_cases a <;> rfl

/-! ## The three result arrays of the region -/

/-- Entry `(b, 0, 0)` of the first result: sample `b`'s cross-entropy sum. -/
abbrev G5 (c : Dev nD) : S32x1x1.Idx → EReal := fun i => bce (aP m c) (aT m c) ⟨(i 0).val, (i 0).isLt⟩
/-- Of the second: its true-positive count. -/
abbrev G6 (c : Dev nD) : S32x1x1.Idx → EReal := fun i => tp (aP m c) (aT m c) ⟨(i 0).val, (i 0).isLt⟩
/-- Of the third: its chamfer term. -/
abbrev G7 (c : Dev nD) : S32x1x1.Idx → EReal := fun i => cd (aP m c) (aD m c) (aC m c) ⟨(i 0).val, (i 0).isLt⟩

/-- Point `t` writes back block `t` of the cross-entropy sums. -/
theorem flushed5_eq (c : Dev nD) (t : Fin cfg0.N) :
    (dats m 0 c).flushed 5 t = ((cfg0.win 5).blk t).view.read (Elt Ideal) (G5 m c) := by
  obtain ⟨-, -, -, -, -, ⟨e0, e1, e2⟩, -⟩ := idx_facts t
  show (cfg0.win 5).cut (grid0.coords t) ((dats m 0 c).after 5 t) = _
  rw [after0_5]
  unfold out0_5
  rw [View.canon_unit_zero hz3]
  simp only [View.ld_unit_zero (S := S1x32x128) hz3]
  funext y
  show k0_pay10 (F := Ideal) (k0_pay5 (F := Ideal) (pblk m c t) (tblk m c t)) y = G5 m c (((cfg0.win 5).blk t).view.emb y)
  refine (Payload.bce_block (pblk m c t) (tblk m c t) y).trans ?_
  simp only [pblk_apply, tblk_apply]
  rw [sum_rows_lanes (fun v => bceT (aP m c (tb t) v) (aT m c (tb t) v))]
  show bce (aP m c) (aT m c) (tb t) = bce (aP m c) (aT m c) _
  congr 1
  apply Fin.ext
  show t.val = win0_5.index t (0 : Fin 3) * 1 + 1 * (y 0).val
  have hy : (y 0).val < 1 := (y 0).isLt
  rw [e0]; omega

theorem mem_blk5 (t : Fin cfg0.N) (i : S32x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v4_0).slice (win0_5.rect t)).set ↔ _
  rw [View.set_slice_whole, Rect.mem_set_unit]
  exact Iff.rfl

/-- Every entry of the first result is some point's block. -/
theorem cover5 (i : S32x1x1.Idx) : ∃ t : Fin cfg0.N, (cfg0.win 5).flush t = true ∧ i ∈ ((cfg0.win 5).blk t).view.set := by
  have h0 : (i 0).val < 32 := (i 0).isLt
  have h1 : (i 1).val < 1 := (i 1).isLt
  have h2 : (i 2).val < 1 := (i 2).isLt
  obtain ⟨-, -, -, -, -, ⟨e0, e1, e2⟩, -⟩ := idx_facts ⟨(i 0).val, lt_of_lt_of_eq h0 (N_0.symm : 32 = cfg0.N)⟩
  refine ⟨⟨(i 0).val, lt_of_lt_of_eq h0 (N_0.symm : 32 = cfg0.N)⟩, flush0_5 _, ?_⟩
  rw [mem_blk5]
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 1 ≤ (i 2).val ∧ (i 2).val < win0_5.index _ (2 : Fin 3) * 1 + 1; rw [e2]; omega

/-- So the first result array ends holding the samples' cross-entropy sums. -/
theorem final5 (c : Dev nD) : (dats m 0 c).arrAt 5 cfg0.N = G5 m c :=
  (dats m 0 c).arrAt_eq_of_cover 5 (G5 m c) (fun t _ => flushed5_eq m c t) cover5

/-- Point `t` writes back block `t` of the true-positive counts. -/
theorem flushed6_eq (c : Dev nD) (t : Fin cfg0.N) :
    (dats m 0 c).flushed 6 t = ((cfg0.win 6).blk t).view.read (Elt Ideal) (G6 m c) := by
  obtain ⟨-, -, -, -, -, -, ⟨e0, e1, e2⟩, -⟩ := idx_facts t
  show (cfg0.win 6).cut (grid0.coords t) ((dats m 0 c).after 6 t) = _
  rw [after0_6]
  unfold out0_6
  rw [View.canon_unit_zero hz3]
  simp only [View.ld_unit_zero (S := S1x32x128) hz3]
  funext y
  show k0_pay1 (F := Ideal) (k0_pay7 (F := Ideal) (pblk m c t) (tblk m c t)) y = G6 m c (((cfg0.win 6).blk t).view.emb y)
  refine (Payload.tp_block (pblk m c t) (tblk m c t) y).trans ?_
  simp only [pblk_apply, tblk_apply]
  rw [sum_rows_lanes (fun v => tpT (aP m c (tb t) v) (aT m c (tb t) v))]
  show tp (aP m c) (aT m c) (tb t) = tp (aP m c) (aT m c) _
  congr 1
  apply Fin.ext
  show t.val = win0_6.index t (0 : Fin 3) * 1 + 1 * (y 0).val
  have hy : (y 0).val < 1 := (y 0).isLt
  rw [e0]; omega

theorem mem_blk6 (t : Fin cfg0.N) (i : S32x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v4_1).slice (win0_6.rect t)).set ↔ _
  rw [View.set_slice_whole, Rect.mem_set_unit]
  exact Iff.rfl

theorem cover6 (i : S32x1x1.Idx) : ∃ t : Fin cfg0.N, (cfg0.win 6).flush t = true ∧ i ∈ ((cfg0.win 6).blk t).view.set := by
  have h0 : (i 0).val < 32 := (i 0).isLt
  have h1 : (i 1).val < 1 := (i 1).isLt
  have h2 : (i 2).val < 1 := (i 2).isLt
  obtain ⟨-, -, -, -, -, -, ⟨e0, e1, e2⟩, -⟩ := idx_facts ⟨(i 0).val, lt_of_lt_of_eq h0 (N_0.symm : 32 = cfg0.N)⟩
  refine ⟨⟨(i 0).val, lt_of_lt_of_eq h0 (N_0.symm : 32 = cfg0.N)⟩, flush0_6 _, ?_⟩
  rw [mem_blk6]
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 1 ≤ (i 1).val ∧ (i 1).val < win0_6.index _ (1 : Fin 3) * 1 + 1; rw [e1]; omega
  | ⟨2, _⟩ => show win0_6.index _ (2 : Fin 3) * 1 ≤ (i 2).val ∧ (i 2).val < win0_6.index _ (2 : Fin 3) * 1 + 1; rw [e2]; omega

theorem final6 (c : Dev nD) : (dats m 0 c).arrAt 6 cfg0.N = G6 m c :=
  (dats m 0 c).arrAt_eq_of_cover 6 (G6 m c) (fun t _ => flushed6_eq m c t) cover6

end Cert.KernelIdeal.KValue
end
-- ==== Proof.KernelTail.lean ====
/-
  The kernel's side, second part. The third result array of the region ends holding the samples' chamfer terms: what a
  point stores is the term of Proof/Payload.lean over the point's own blocks, which, read by coordinates of the argument
  arrays, is the sample's chamfer term of Proof/Spec.lean. Then the host lines after the region: each of the three
  `[32, 1, 1]` arrays is summed from the zero word (a sum over its 32 first coordinates), the first sum is negated and
  divided by `131072` (the sign crosses the quotient), the third divided by `32`, the second negated and exponentiated,
  and the three are added: the loss of the argument arrays. The run restates the frame run with that result.
-/
import proofs.«421030_j70016556859475_3_alg».proof.Proof.KernelValue

noncomputable section
namespace Cert.KernelIdeal.KValue
open Cert.KernelIdeal Cert.KernelIdeal.Gen Idealize.ShloMosaic Idealize.ShloMosaic.TcCoe Idealize.SL.Sem Idealize.ShloMosaic.ValueIdx
open Idealize.ShloMosaic.StableHlo Cert.LossSpec
open Idealize.ShloMosaic.Pipeline (Dat)

variable (m : (ℓ : Loc nD τ sig) → Buf (Elt Ideal) ℓ) (ρ : Dev nD → PrngReg)
/-- The block's mask count is the sample's. -/
theorem cntBlock_eq (c : Dev nD) (t : Fin cfg0.N) : Payload.cntBlock (pblk m c t) = cnt (aP m c) (tb t) := by
  unfold Payload.cntBlock
  simp only [pblk_apply]
  exact sum_rows_lanes (fun v => msk (aP m c (tb t) v))

/-- The block's least distance is the sample's. -/
theorem dminBlock_eq (c : Dev nD) (t : Fin cfg0.N) (v : Fin 4096) :
    Payload.dminBlock (gblk m c t) (cblk m c t) v = dmin (aD m c) (aC m c) (tb t) v := by
  unfold Payload.dminBlock dmin dist2
  simp only [gblk_apply, cblk_apply]

/-- What the body leaves in the third result's buffer, over any blocks: the chamfer term of Proof/Payload.lean. -/
theorem out7_eq (x0 : Vec Ideal S1x4096x1 .f32) (x1 x2 : Vec Ideal S1x32x128 .f32) (x3 : Vec Ideal S1x3x256 .f32)
    (x4 : Vec Ideal S4096x3 .f32) (z : S1x1x1.Idx) :
    out0_7 (F := Ideal) x0 x1 x2 x3 x4 z
      = Scalar.select (Ideal.cmp .ogt (Payload.cntBlock x1) (Ideal.ofBits .f32 0x00000000#32))
          (Ideal.div (∑ v : Fin 4096, Payload.dminBlock x3 x4 v * msk (x0 (ix3 0 v 0))) (max (Payload.cntBlock x1) cOne))
          (Ideal.ofBits .f32 0x00000000#32) := by
  unfold out0_7
  rw [View.canon_unit_zero hz3]
  simp only [View.ld_unit_zero (S := S1x32x128) hz3, View.ld_unit_zero (S := S1x4096x1) hz3, View.ld_unit_zero (S := S1x3x256) hz3, View.ld_unit_zero (S := S4096x3) hz2]
  exact Payload.cd_block x0 x1 x3 x4 z

/-- Over the point's own blocks that term is sample `t`'s chamfer term. -/
theorem cd_of_blocks (c : Dev nD) (t : Fin cfg0.N) :
    Scalar.select (Ideal.cmp .ogt (Payload.cntBlock (pblk m c t)) (Ideal.ofBits .f32 0x00000000#32))
        (Ideal.div (∑ v : Fin 4096, Payload.dminBlock (gblk m c t) (cblk m c t) v * msk (vblk m c t (ix3 0 v 0)))
          (max (Payload.cntBlock (pblk m c t)) cOne))
        (Ideal.ofBits .f32 0x00000000#32)
      = cd (aP m c) (aD m c) (aC m c) (tb t) := by
  rw [cntBlock_eq]
  simp only [dminBlock_eq, vblk_apply]
  rfl

/-- Point `t` writes back block `t` of the chamfer terms. -/
theorem flushed7_eq (c : Dev nD) (t : Fin cfg0.N) :
    (dats m 0 c).flushed 7 t = ((cfg0.win 7).blk t).view.read (Elt Ideal) (G7 m c) := by
  obtain ⟨-, -, -, -, -, -, -, ⟨e0, e1, e2⟩⟩ := idx_facts t
  show (cfg0.win 7).cut (grid0.coords t) ((dats m 0 c).after 7 t) = _
  rw [after0_7]
  funext y
  dsimp only [Pipeline.Window.cut]
  refine (out7_eq (vblk m c t) (pblk m c t) (tblk m c t) (gblk m c t) (cblk m c t) _).trans ?_
  refine (cd_of_blocks m c t).trans ?_
  have hy : (y 0).val < 1 := (y 0).isLt
  have hb : (⟨((((cfg0.win 7).blk t).view.emb y) 0).val, ((((cfg0.win 7).blk t).view.emb y) 0).isLt⟩ : Fin 32) = tb t :=
    Fin.ext (by show win0_7.index t (0 : Fin 3) * 1 + 1 * (y 0).val = t.val; rw [e0]; omega)
  rw [View.read_apply]
  dsimp only [G7]
  rw [hb]
  exact (cast_eq _ _).symm

theorem mem_blk7 (t : Fin cfg0.N) (i : S32x1x1.Idx) :
    i ∈ ((cfg0.win 7).blk t).view.set ↔ ∀ a : Fin 3, win0_7.index t a * S1x1x1.size a ≤ (i a).val ∧ (i a).val < win0_7.index t a * S1x1x1.size a + S1x1x1.size a := by
  show i ∈ ((View.whole main_v4_2).slice (win0_7.rect t)).set ↔ _
  rw [View.set_slice_whole, Rect.mem_set_unit]
  exact Iff.rfl

theorem cover7 (i : S32x1x1.Idx) : ∃ t : Fin cfg0.N, (cfg0.win 7).flush t = true ∧ i ∈ ((cfg0.win 7).blk t).view.set := by
  have h0 : (i 0).val < 32 := (i 0).isLt
  have h1 : (i 1).val < 1 := (i 1).isLt
  have h2 : (i 2).val < 1 := (i 2).isLt
  obtain ⟨-, -, -, -, -, -, -, ⟨e0, e1, e2⟩⟩ := idx_facts ⟨(i 0).val, lt_of_lt_of_eq h0 (N_0.symm : 32 = cfg0.N)⟩
  refine ⟨⟨(i 0).val, lt_of_lt_of_eq h0 (N_0.symm : 32 = cfg0.N)⟩, flush0_7 _, ?_⟩
  rw [mem_blk7]
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 1 ≤ (i 2).val ∧ (i 2).val < win0_7.index _ (2 : Fin 3) * 1 + 1; rw [e2]; omega

theorem final7 (c : Dev nD) : (dats m 0 c).arrAt 7 cfg0.N = G7 m c :=
  (dats m 0 c).arrAt_eq_of_cover 7 (G7 m c) (fun t _ => flushed7_eq m c t) cover7

/-! ## The host lines after the region -/

/-- The entries of a `[32, 1, 1]` array are its 32 first coordinates. -/
def idx311 : S32x1x1.Idx ≃ Fin 32 where
  toFun j := ⟨(j 0).val, (j 0).isLt⟩
  invFun b := ix3 b 0 0
  left_inv j := by
    funext a
    match a with
    | ⟨0, _⟩ => rfl
    | ⟨1, _⟩ => exact Fin.ext (by have h : (j 1).val < 1 := (j 1).isLt; show (0 : Nat) = (j 1).val; omega)
    | ⟨2, _⟩ => exact Fin.ext (by have h : (j 2).val < 1 := (j 2).isLt; show (0 : Nat) = (j 2).val; omega)
  right_inv b := rfl

/-- The host's sum of the 32 partial results, from the zero word. -/
theorem sum_partials (G : S32x1x1.Idx → EReal) (i : S_.Idx) :
    Host.reduceAdd (F := Ideal) (φ := .f32) G (constant S_ .f32 0x00000000#32) reducesTo_S32x1x1_S_d0_1_2 h_S_ i
      = ∑ b : Fin 32, G (ix3 b 0 0) := by
  simp only [Host.reduceAdd, Ideal.hostReduceAdd_def]
  rw [Ideal.hostReduceAdd_total reducesTo_S32x1x1_S_d0_1_2 (fun b => b.elim0) G _ i]
  show Ideal.ofBits .f32 0x00000000#32 + _ = _
  rw [Ideal.ofBits_zero_f32, zero_add]
  exact (Fintype.sum_equiv idx311.symm (fun b => G (ix3 b 0 0)) G (fun b => rfl)).symm

/-- The program's result: the loss of the argument arrays. -/
theorem tail_result (c : Dev nD) :
    Pipeline.afterTail₀ cfgs (dats m) 0 (V0 m) [hostOps1] c main_v17 = fun _ => total (aP m c) (aT m c) (aD m c) (aC m c) := by
  unfold Pipeline.afterTail₀
  show StableHlo.after hostOps1 _ (Proc.devRef .tc main_v17) = _
  after_results
  rw [show Pipeline.withArrays (cfgs 0).spec c (V0 m c) (fun w => (dats m 0 c).arrAt w (cfgs 0).N) (Proc.devRef .tc main_v4_0) = G5 m c from
        (Pipeline.withArrays_arr spec0 launch0.win.arr_inj c _ _ 5).trans (final5 m c),
      show Pipeline.withArrays (cfgs 0).spec c (V0 m c) (fun w => (dats m 0 c).arrAt w (cfgs 0).N) (Proc.devRef .tc main_v4_1) = G6 m c from
        (Pipeline.withArrays_arr spec0 launch0.win.arr_inj c _ _ 6).trans (final6 m c),
      show Pipeline.withArrays (cfgs 0).spec c (V0 m c) (fun w => (dats m 0 c).arrAt w (cfgs 0).N) (Proc.devRef .tc main_v4_2) = G7 m c from
        (Pipeline.withArrays_arr spec0 launch0.win.arr_inj c _ _ 7).trans (final7 m c)]
  funext i
  simp only [addf_apply, mulf_apply, constant_apply, Host.divf, Host.negf, Host.exp, Ideal.hostDivf_def, Ideal.hostNegf_def,
    Ideal.negf_def, Ideal.hostUnary_exp_def, sum_partials]
  rw [div_neg_left]
  rfl

/-! ## The run, read -/

/-- Every weakly fair execution of the kernel's program ends with its result at the loss of the argument arrays,
    the arguments unchanged. -/
theorem run : θ_run defs (onTc (τ := τ) (main (F := Ideal))) ⟨m, fun _ => 0, ρ⟩ fun r => ∀ c : Dev nD,
      r.2.mem ((c.tc : Thread nD τ).loc main_v17) = (fun _ => total (aP m c) (aT m c) (aD m c) (aC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v17 (Pipeline.mem_restRefs_of main_v17 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c)))⟩)
    (run_main m ρ)

end Cert.KernelIdeal.KValue
end
-- ==== Proof.lean ====
/-
  The certificate: a fused loss kernel — per sample a binary cross-entropy sum, a true-positive count and a masked
  chamfer distance, combined on the host — against its reference, over the extended reals.

  Both programs compute the loss of Proof/Spec.lean of the four argument arrays. The kernel's side
  (Proof/KernelValue.lean, Proof/KernelTail.lean, over Proof/Payload.lean): grid point `t` stores sample `t`'s three
  partial results, computed on a 32 × 128 reshape of the 4096 voxels (a sum over rows of sums over lanes is the sum over the
  voxels) and with the square root taken AFTER the minimum of the squared distances (the square root is monotone on the
  extended reals, so it commutes with a minimum taken from `⊤`); the host then sums the 32 partials, and negates BEFORE
  dividing by `131072` where the reference divides first (a sign crosses a quotient by a nonzero divisor). The reference's
  side (Proof/RefValue.lean) reads its run one operation at a time. No law used needs the inputs finite: sums on the
  extended reals commute and associate, and nothing is distributed or cancelled.
  The three frames: the kernel's two are the generated frame runs; the reference's is its run with the result dropped.
  The idealization rewrote nothing, so `preserves` is trivial.
-/
import proofs.«421030_j70016556859475_3_alg».proof.Defs
import proofs.«421030_j70016556859475_3_alg».proof.Proof.Gen.Kernel
import proofs.«421030_j70016556859475_3_alg».proof.Proof.Gen.Kernel.Frame
import proofs.«421030_j70016556859475_3_alg».proof.Proof.Gen.KernelIdeal
import proofs.«421030_j70016556859475_3_alg».proof.Proof.Gen.KernelIdeal.Frame
import proofs.«421030_j70016556859475_3_alg».proof.Proof.Gen.ReferenceIdeal
import proofs.«421030_j70016556859475_3_alg».proof.Proof.Gen.Pre_finite_inputs
import proofs.«421030_j70016556859475_3_alg».proof.Proof.RefRun
import proofs.«421030_j70016556859475_3_alg».proof.Proof.RefRead
import proofs.«421030_j70016556859475_3_alg».proof.Proof.RefValue
import proofs.«421030_j70016556859475_3_alg».proof.Proof.KernelTail
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments both programs end with the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.LossSpec.total (Cert.KernelIdeal.KValue.aP m c) (Cert.KernelIdeal.KValue.aT m c)
    (Cert.KernelIdeal.KValue.aD m c) (Cert.KernelIdeal.KValue.aC m c)), Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2, Cert.ReferenceIdeal.ReadP.val_main_v47_eq]
  funext i
  exact Cert.ReferenceIdeal.RefValue.ref_total _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
